-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x4096 : Shape := ⟨3, ![8, 4, 4096]⟩
abbrev S14336x4096 : Shape := ⟨2, ![14336, 4096]⟩
abbrev S4096x14336 : Shape := ⟨2, ![4096, 14336]⟩
abbrev S_ : Shape := ⟨0, ![]⟩

class Facts : Prop where
  bcast_S_S8x4x4096 : S_.BroadcastsInDim S8x4x4096 (![] : Fin 0 → Fin S8x4x4096.rank)
  reducesTo_S8x4x4096_S_d0_1_2 : S8x4x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn {F : FTy → Type} [FloatOps F] (main_arg0 : FVec F S8x4x4096 .f32) (main_arg1 : FVec F S14336x4096 .f32) (main_arg2 : FVec F S4096x14336 .f32) : IVec S_ 1 :=
  let main_v0 : FVec F S8x4x4096 .f32 := Host.absf main_arg0
  let main_cst : FVec F S_ .f32 := constant S_ .f32 0x7F800000#32
  let main_v1 : FVec F S8x4x4096 .f32 := broadcastInDim S8x4x4096 ![] bcast_S_S8x4x4096 main_cst
  let main_v2 : IVec S8x4x4096 1 := cmpf .olt main_v0 main_v1
  let main_c : IVec S_ 1 := constantI S_ 1 1#1
  let main_v3 : IVec S_ 1 := (fun x v => Host.reduce IntOp.andi x v reducesTo_S8x4x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  main_v13
-- ==== Kernel.lean ====
abbrev S8x4x4096 : Shape := ⟨3, ![8, 4, 4096]⟩
abbrev S14336x4096 : Shape := ⟨2, ![14336, 4096]⟩
abbrev S4096x14336 : Shape := ⟨2, ![4096, 14336]⟩
abbrev S32x4096 : Shape := ⟨2, ![32, 4096]⟩
abbrev S4096x32 : Shape := ⟨2, ![4096, 32]⟩
abbrev S512x4096 : Shape := ⟨2, ![512, 4096]⟩
abbrev S128x14336 : Shape := ⟨2, ![128, 14336]⟩
abbrev S128x32 : Shape := ⟨2, ![128, 32]⟩
abbrev S14336x32 : Shape := ⟨2, ![14336, 32]⟩
abbrev S512x32 : Shape := ⟨2, ![512, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x4x4096, .f32⟩
  | .hbm, ⟨1, _⟩ => ⟨S14336x4096, .f32⟩
  | .hbm, ⟨2, _⟩ => ⟨S4096x14336, .f32⟩
  | .hbm, ⟨3, _⟩ => ⟨S32x4096, .f32⟩
  | .hbm, ⟨4, _⟩ => ⟨S4096x32, .f32⟩
  | .hbm, ⟨5, _⟩ => ⟨S4096x32, .f32⟩
  | .hbm, ⟨6, _⟩ => ⟨S32x4096, .f32⟩
  | .hbm, ⟨7, _⟩ => ⟨S8x4x4096, .f32⟩
  | .local _ .vmem, ⟨0, _⟩ => ⟨S4096x32, .f32⟩
  | .local _ .vmem, ⟨1, _⟩ => ⟨S512x4096, .f32⟩
  | .local _ .vmem, ⟨2, _⟩ => ⟨S512x4096, .f32⟩
  | .local _ .vmem, ⟨3, _⟩ => ⟨S128x14336, .f32⟩
  | .local _ .vmem, ⟨4, _⟩ => ⟨S128x14336, .f32⟩
  | .local _ .vmem, ⟨5, _⟩ => ⟨S128x32, .f32⟩
  | .local _ .vmem, ⟨6, _⟩ => ⟨S128x32, .f32⟩
  | .local _ .vmem, ⟨7, _⟩ => ⟨S14336x32, .f32⟩
  | _, _ => ⟨S8x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c28_i32 : BitVec 32 := 28#32
  let v0 : BitVec 1 := Scalar.cmpi .slt arg0 c28_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v12 : BitVec 32 := Scalar.muli arg0 c512_i32
  let v13 : Index := Scalar.indexCast v12
  let c0_6 : Index := 0#32
  ![v13.toNat, 0]
def k0_cond2 (i : grid0.Coords) : BitVec 1 :=
  let arg0 : BitVec 32 := BitVec.ofNat 32 (i 0).val
  let c28_i32_0 : BitVec 32 := 28#32
  let v3 : BitVec 1 := Scalar.cmpi .sge arg0 c28_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x14336 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4x4096_S32x4096 : S8x4x4096.ShapeCasts S32x4096
  transposes_S32x4096_S4096x32_1_0 : S32x4096.Transposes [1, 0] S4096x32
  transposes_S4096x32_S32x4096_1_0 : S4096x32.Transposes [1, 0] S32x4096
  shapeCasts_S32x4096_S8x4x4096 : S32x4096.ShapeCasts S8x4x4096
  inb_S512x4096_S512x4096_0_0 : ∀ a, (![0, 0] : Fin 2 → Nat) a + S512x4096.size a ≤ S512x4096.size a
  h_S512x4096 : 0 < S512x4096.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  h_S512x32 : 0 < S512x32.numel
  shapeCasts_S512x32_S512x32 : S512x32.ShapeCasts S512x32
  inb_S128x14336_S128x14336_0_0 : ∀ a, (![0, 0] : Fin 2 → Nat) a + S128x14336.size a ≤ S128x14336.size a
  h_S128x14336 : 0 < S128x14336.numel
  inb_S14336x32_S14336x32_0_0 : ∀ a, (![0, 0] : Fin 2 → Nat) a + S14336x32.size a ≤ S14336x32.size a
  h_S14336x32 : 0 < S14336x32.numel
  inb_S128x32_S128x32_0_0 : ∀ a, (![0, 0] : Fin 2 → Nat) a + S128x32.size a ≤ S128x32.size a
  h_S128x32 : 0 < S128x32.numel
  dot_S512x4096_S4096x32_S512x32_1_0_0_1_n_n_wf : DotDims.WF S512x4096 S4096x32 S512x32 [1] [0] [0] [1] [] []
  dot_S128x14336_S14336x32_S128x32_1_0_0_1_n_n_wf : DotDims.WF S128x14336 S14336x32 S128x32 [1] [0] [0] [1] [] []
  hrank0 : 0 < grid0.rank
  k0_off1_inb : ∀ i : grid0.Coords, ∀ (k0_h1 : k0_cond1 i = 1#1), ∀ a, (k0_off1 i) a + S512x32.size a ≤ S14336x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S4096x32.size a
  hwx0_0 : ∀ i : grid0.Coords, EltTy.bits .f32 = 32 ∨ (Rect.block (s := S4096x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .f32 = 32 ∨ (Rect.block (s := S14336x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x14336.size a ≤ S4096x14336.size a
  hwx0_2 : ∀ i : grid0.Coords, EltTy.bits .f32 = 32 ∨ (Rect.block (s := S4096x14336) S128x14336.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S4096x32.size a
  hwx0_3 : ∀ i : grid0.Coords, EltTy.bits .f32 = 32 ∨ (Rect.block (s := S4096x32) S128x32.size (cc0_transform_3 i) (hinb0_3 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S128x14336_S14336x32_S128x32_1_0_0_1_n_n : DotDims S128x14336 S14336x32 S128x32 where
  lhsContracting := [1]
  rhsContracting := [0]
  lhsNonContracting := [0]
  rhsNonContracting := [1]
  lhsBatch := []
  rhsBatch := []
  wf := dot_S128x14336_S14336x32_S128x32_1_0_0_1_n_n_wf

abbrev win0_0 : Pipeline.Window sig grid0 :=
  Pipeline.Window.ofSpec (Memref.whole main_call0_v1) S4096x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x14336.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4x4096 : Shape := ⟨3, ![8, 4, 4096]⟩
abbrev S14336x4096 : Shape := ⟨2, ![14336, 4096]⟩
abbrev S4096x14336 : Shape := ⟨2, ![4096, 14336]⟩
abbrev S8x4x14336 : Shape := ⟨3, ![8, 4, 14336]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x4x4096, .f32⟩
  | .hbm, ⟨1, _⟩ => ⟨S14336x4096, .f32⟩
  | .hbm, ⟨2, _⟩ => ⟨S4096x14336, .f32⟩
  | .hbm, ⟨3, _⟩ => ⟨S8x4x14336, .f32⟩
  | .hbm, ⟨4, _⟩ => ⟨S_, .f32⟩
  | .hbm, ⟨5, _⟩ => ⟨S8x4x14336, .f32⟩
  | .hbm, ⟨6, _⟩ => ⟨S8x4x14336, .f32⟩
  | .hbm, ⟨7, _⟩ => ⟨S8x4x4096, .f32⟩
  | _, _ => ⟨S8x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S8x4x14336 : S_.BroadcastsInDim S8x4x14336 (![] : Fin 0 → Fin S8x4x14336.rank)
  dot_S8x4x4096_S14336x4096_S8x4x14336_2_1_01_0_n_n_wf : DotDims.WF S8x4x4096 S14336x4096 S8x4x14336 [2] [1] [0, 1] [0] [] []
  dot_S8x4x14336_S4096x14336_S8x4x4096_2_1_01_0_n_n_wf : DotDims.WF S8x4x14336 S4096x14336 S8x4x4096 [2] [1] [0, 1] [0] [] []

variable [Facts₀]

def dot_S8x4x4096_S14336x4096_S8x4x14336_2_1_01_0_n_n : DotDims S8x4x4096 S14336x4096 S8x4x14336 where
  lhsContracting := [2]
  rhsContracting := [1]
  lhsNonContracting := [0, 1]
  rhsNonContracting := [0]
  lhsBatch := []
  rhsBatch := []
  wf := dot_S8x4x4096_S14336x4096_S8x4x14336_2_1_01_0_n_n_wf
def dot_S8x4x14336_S4096x14336_S8x4x4096_2_1_01_0_n_n : DotDims S8x4x14336 S4096x14336 S8x4x4096 where
  lhsContracting := [2]
  rhsContracting := [1]
  lhsNonContracting := [0, 1]
  rhsNonContracting := [0]
  lhsBatch := []
  rhsBatch := []
  wf := dot_S8x4x14336_S4096x14336_S8x4x4096_2_1_01_0_n_n_wf

class Facts : Prop extends Facts₀ where

variable [Facts]
-- ==== Proof.FfnDataK.lean ====
/- The proof data of the feed-forward pipeline: a grid of 60 points in two phases.

   Points 0 … 27 (phase one): point p multiplies rows [512 p, 512 p + 512) of the first weight matrix
   by the transposed input (4096 x 32), clamps the product below at zero and stores it as rows
   [512 p, 512 p + 512) of a scratch of 14336 x 32 that lives across the points. After point 27 the
   scratch holds the whole hidden activation, transposed.
   Points 28 … 59 (phase two): point 28 + q multiplies rows [128 q, 128 q + 128) of the second weight
   matrix by the whole scratch and stores the 128 x 32 product as its output block.

   The scratch starts at unknown contents, so what it holds between points is stated as a relation:
   after n points its rows below 512 * n are the hidden activation's (the rows above are whatever they
   were). From point 28 on that is the whole scratch. -/
import proofs.«170390_g47425028882858_cont_8to1c4_122_13_alg».proof.Proof.Gen.Kernel.Frame
import proofs.«170390_g47425028882858_cont_8to1c4_122_13_alg».proof.Proof.Gen.Kernel.Skeleton
import Idealize.ShloMosaic.Lib.WritesUnit
import Idealize.ShloMosaic.Lib.ValueIdx

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two phases, decided over the grid -/

/-- The first branch of the body (phase one) is taken -/
abbrev inPhase1 (i : grid0.Coords) : Prop := k0_cond1 i = 1#1
/-- exactly at the points below 28; -/
theorem inPhase1_iff : ∀ t : Fin cfg0.N, inPhase1 (grid0.coords t) ↔ t.val < 28 :=
  (by decide +kernel : ∀ t : Fin grid0.N, inPhase1 (grid0.coords t) ↔ t.val < 28)

/-- the second branch (phase two) -/
abbrev inPhase2 (i : grid0.Coords) : Prop := k0_cond2 i = 1#1
/-- exactly at the points from 28 on. -/
theorem inPhase2_iff : ∀ t : Fin cfg0.N, inPhase2 (grid0.coords t) ↔ 28 ≤ t.val :=
  (by decide +kernel : ∀ t : Fin grid0.N, inPhase2 (grid0.coords t) ↔ 28 ≤ t.val)

/-- The three input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- The output window is idle through phase one, and is not written back there; -/
theorem idle_out_phase1 : ∀ t : Fin cfg0.N, t.val < 28 → cfg0.idle 3 (grid0.coords t) = true := by decide +kernel
theorem noflush_out_phase1 : ∀ t : Fin cfg0.N, t.val < 28 → (cfg0.win 3).flush t = false := by decide +kernel
/-- in phase two it is live, and every point writes its block back. -/
theorem live_out_phase2 : ∀ t : Fin cfg0.N, 28 ≤ t.val → cfg0.idle 3 (grid0.coords t) = false := by decide +kernel
theorem flush_out_phase2 : ∀ t : Fin cfg0.N, 28 ≤ t.val → (cfg0.win 3).flush t = true := by decide +kernel

/-! ## The staging memrefs at a point, and the scratch -/

abbrev ms0 (t : Fin cfg0.N) : Memref sig .tc .vmem S4096x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x14336 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x32 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scr : Memref sig .tc .vmem S14336x32 .f32 := Memref.whole cc0_scratch0

/-- The launch's invariant: the scratch at some contents, and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the scratch and the output blocks hold -/

/-- The three input blocks at a point, at their literal types. -/
abbrev xtBlk (c : Dev nD) (t : Fin cfg0.N) : Vec F S4096x32 .f32 := iblk m c 0 t
abbrev w1Blk (c : Dev nD) (t : Fin cfg0.N) : Vec F S512x4096 .f32 := iblk m c 1 t
abbrev w2Blk (c : Dev nD) (t : Fin cfg0.N) : Vec F S128x14336 .f32 := iblk m c 2 t

/-- The 512 rows of the hidden activation that point `p` computes. -/
def hiddenRows (c : Dev nD) (p : Fin cfg0.N) : Vec F S512x32 .f32 := k0_pay1 (w1Blk m c p) (xtBlk m c p)

theorem div512_lt {r : ℕ} (h : r < 14336) : r / 512 < cfg0.N := by
  have : cfg0.N = 60 := N_0
  omega

/-- The whole hidden activation, transposed: row r is row r % 512 of what point r / 512 computes. -/
def hidden (c : Dev nD) : Vec F S14336x32 .f32 := fun y =>
  hiddenRows m c ⟨(y 0).val / 512, div512_lt (y 0).isLt⟩ (ix2 ⟨(y 0).val % 512, Nat.mod_lt _ (by decide)⟩ (y 1))

/-- Contents `S` of the scratch agree with the hidden activation on the rows the first `n` points wrote. -/
def AgreesBelow (c : Dev nD) (n : ℕ) (S : Vec F S14336x32 .f32) : Prop :=
  ∀ y : S14336x32.Idx, (y 0).val < 512 * n → S y = hidden m c y

/-- From 28 points on the scratch is the hidden activation. -/
theorem AgreesBelow.eq_hidden {c : Dev nD} {n : ℕ} {S : Vec F S14336x32 .f32} (h : AgreesBelow m c n S) (hn : 28 ≤ n) :
    S = hidden m c :=
  funext fun y => h y (by have := (y 0).isLt; show (y 0).val < 512 * n; have h2 : (y 0).val < 14336 := this; omega)

/-- The output block of a phase-two point: its block of the second weight matrix times the hidden activation. -/
def outBlk (c : Dev nD) (t : Fin cfg0.N) : Vec F S128x32 .f32 := k0_pay2 (w2Blk m c t) (hidden m c)

/-- The invariant before point `n`: the scratch at contents that agree with the hidden activation below row 512 * n,
    and the generator register. -/
def PhiS (c : Dev nD) (n : ℕ) : sProp 𝕄 :=
  iprop(iprop(∃ S, ⌜AgreesBelow m c n S⌝ ∗ owns (c : Thread nD τ) scr fullShare S) ∗ (∃ r, prngReg c r))

/-- The proof data: the arrays as the region finds them; each input's staging buffer at its block; the output's at
    `outBlk` (consulted only in phase two); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = outBlk m c t := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d

theorem Phi_eq (c : Dev nD) (t : Fin (cfg0.N + 1)) : (dats m 0 c).Φ t = PhiS m c t.val := by dsimp only [dats]

end Cert.Kernel.Ffn

end
-- ==== Proof.FfnBodyK.lean ====
/- The body of the pipeline at a point, in its two cases, and the run of the whole program.
   Phase one: the body overwrites rows [512 p, 512 p + 512) of the scratch with the clamped product and leaves
   everything else (the output's staging buffer included) as it found it.
   Phase two: the body overwrites the output's staging buffer with the product of the weight block and the whole
   scratch, and leaves the scratch as it found it. -/
import proofs.«170390_g47425028882858_cont_8to1c4_122_13_alg».proof.Proof.FfnDataK
import Idealize.ShloMosaic.Lib.Pipeline.Value
set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → ℕ) = fun _ => 0 := by
  funext a; fin_cases a <;> rfl

/-- In phase one the body's store into the scratch starts at row 512 t, column 0. -/
theorem slab_offset : ∀ t : Fin cfg0.N, t.val < 28 → k0_off1 (grid0.coords t) = ![512 * t.val, 0] :=
  (by decide +kernel : ∀ t : Fin grid0.N, t.val < 28 → k0_off1 (grid0.coords t) = ![512 * t.val, 0])

/-- Contents `xs` of the scratch with its rows [o, o + 512) replaced by `P`. -/
def slabStore (o : ℕ) (P : Vec F S512x32 .f32) (xs : Vec F S14336x32 .f32) : Vec F S14336x32 .f32 := fun y =>
  if h : o ≤ (y 0).val ∧ (y 0).val < o + 512 then P (ix2 ⟨(y 0).val - o, by omega⟩ (y 1)) else xs y

/-- A row of the hidden activation inside point t's slab is that point's row. -/
theorem hidden_of_slab (c : Dev nD) (t : Fin cfg0.N) (y : S14336x32.Idx) (h : 512 * t.val ≤ (y 0).val ∧ (y 0).val < 512 * t.val + 512) :
    hidden m c y = hiddenRows m c t (ix2 ⟨(y 0).val - 512 * t.val, by omega⟩ (y 1)) := by
  unfold hidden
  have e1 : (⟨(y 0).val / 512, div512_lt (y 0).isLt⟩ : Fin cfg0.N) = t := Fin.ext (by show (y 0).val / 512 = t.val; omega)
  have e2 : (⟨(y 0).val % 512, Nat.mod_lt _ (by decide)⟩ : Fin 512) = ⟨(y 0).val - 512 * t.val, by omega⟩ :=
    Fin.ext (by show (y 0).val % 512 = (y 0).val - 512 * t.val; omega)
  rw [e1, e2]

/-- Storing point t's rows keeps the agreement and extends it by one slab. -/
theorem AgreesBelow.step {c : Dev nD} {t : Fin cfg0.N} {S : Vec F S14336x32 .f32} (h : AgreesBelow m c t.val S) :
    AgreesBelow m c (t.val + 1) (slabStore (512 * t.val) (hiddenRows m c t) S) := by
  intro y hy
  unfold slabStore
  by_cases hin : 512 * t.val ≤ (y 0).val ∧ (y 0).val < 512 * t.val + 512
  · rw [dif_pos hin, hidden_of_slab m c t y hin]
  · rw [dif_neg hin]
    exact h y (by omega)

/-- The hidden activation agrees with itself below every row. -/
theorem agreesBelow_hidden (c : Dev nD) (n : ℕ) : AgreesBelow m c n (hidden m c) := fun _ _ => rfl

/-! ## The body in its two cases -/

set_option maxHeartbeats 1000000 in
/-- PHASE ONE: on whole staging memrefs at contents `x0`, `x1`, `x2`, `xi3` and the scratch at `xs`, the store's offsets being
    row `o`, column 0, the body runs to the continuation holding everything as it was but the scratch, whose rows
    [o, o + 512) are now the clamped product of the weight block and the transposed input. -/
theorem runA (c : Dev nD) (i : grid0.Coords) (arg1 : Memref sig .tc .vmem S4096x32 .f32) (harg1 : arg1.IsWhole) (arg2 : Memref sig .tc .vmem S512x4096 .f32) (harg2 : arg2.IsWhole) (arg3 : Memref sig .tc .vmem S128x14336 .f32) (harg3 : arg3.IsWhole) (arg4 : Memref sig .tc .vmem S128x32 .f32) (harg4 : arg4.IsWhole) (arg5 : Memref sig .tc .vmem S14336x32 .f32) (harg5 : arg5.IsWhole) (hc0 : inPhase1 i) (hc1 : ¬inPhase2 i)
    (o : ℕ) (ho : k0_off1 i = ![o, 0])
    (x0 : Vec F S4096x32 .f32) (x1 : Vec F S512x4096 .f32) (x2 : Vec F S128x14336 .f32) (xi3 : Vec F S128x32 .f32) (xs : Vec F S14336x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare (slabStore o (k0_pay1 x1 x0) xs)) -∗ K ⟨⟩))
          ⊢ wp frame (wpE (defs₀ (F := F)) Variants.none c none) E (cc0__ffn_kernel i arg1 harg1 arg2 harg2 arg3 harg3 arg4 harg4 arg5 harg5) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap; · iexact HS0
    ipureintro
    funext y
    rw [View.read_writes_cons_rows (o := o) (W := 512) arg5.view (harg5.unread xs) (k0_off1_inb i hc0) _ [] y ho
      (show S512x32.size (0 : Fin 2) = 512 from rfl) (show S512x32.size (1 : Fin 2) = (![14336, 32] : Fin 2 → ℕ) 1 from rfl)]
    unfold slabStore
    simp only [View.readAt_eq_ld, harg1.read_unread, harg2.read_unread, View.ld_unit_zero (S := S512x4096) zero2, View.ld_unit_zero (S := S4096x32) zero2]
    by_cases hin : o ≤ (y 0).val ∧ (y 0).val < o + 512
    · rw [dif_pos hin, dif_pos hin]
      refine congrArg (k0_pay1 x1 x0) (funext fun a => Fin.ext ?_)
      match a with
      | ⟨0, _⟩ => rfl
      | ⟨1, _⟩ => exact Nat.sub_zero _
    · rw [dif_neg hin, dif_neg hin]
      exact congrFun (harg5.read_unread xs) y

set_option maxHeartbeats 1000000 in
/-- PHASE TWO: on whole staging memrefs at contents `x0`, `x1`, `x2`, `xi3` and the scratch at `xs`, the body runs to the
    continuation holding everything as it was but the output's staging buffer, which is now the product of the weight
    block and the scratch. -/
theorem runB (c : Dev nD) (i : grid0.Coords) (arg1 : Memref sig .tc .vmem S4096x32 .f32) (harg1 : arg1.IsWhole) (arg2 : Memref sig .tc .vmem S512x4096 .f32) (harg2 : arg2.IsWhole) (arg3 : Memref sig .tc .vmem S128x14336 .f32) (harg3 : arg3.IsWhole) (arg4 : Memref sig .tc .vmem S128x32 .f32) (harg4 : arg4.IsWhole) (arg5 : Memref sig .tc .vmem S14336x32 .f32) (harg5 : arg5.IsWhole) (hc0 : ¬inPhase1 i) (hc1 : inPhase2 i)
    (x0 : Vec F S4096x32 .f32) (x1 : Vec F S512x4096 .f32) (x2 : Vec F S128x14336 .f32) (xi3 : Vec F S128x32 .f32) (xs : Vec F S14336x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare (k0_pay2 x2 xs) ∗ owns (c : Thread nD τ) arg5 fullShare xs) -∗ K ⟨⟩))
          ⊢ wp frame (wpE (defs₀ (F := F)) Variants.none c none) E (cc0__ffn_kernel i arg1 harg1 arg2 harg2 arg3 harg3 arg4 harg4 arg5 harg5) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      funext y
      rw [View.read_writes_cons_unit_of_mem arg4.view (harg4.unread xi3) inb_S128x32_S128x32_0_0 _ [] y y rfl
        (Fin.forall_fin_two.mpr ⟨(Nat.zero_add _).symm, (Nat.zero_add _).symm⟩)]
      simp only [View.readAt_eq_ld, harg3.read_unread, harg5.read_unread, View.ld_unit_zero (S := S128x14336) zero2, View.ld_unit_zero (S := S14336x32) zero2]
    iexists _; isplitr; · ipureintro; exact harg5.read_unread _
    iexact HS0

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. In phase one the invariant hands it the scratch at contents agreeing with the hidden activation
    below row 512 t and takes it back agreeing below row 512 (t + 1); the output's buffer, idle and not written back, goes
    back as it came. In phase two the scratch IS the hidden activation, stays so, and the output's buffer is left at the
    point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).owesAt () t.succ = (dats m 0 c).owesAt () t.castSucc from rfl]
  rw [Phi_eq m c t.castSucc, Phi_eq m c t.succ, Fin.coe_castSucc, Fin.val_succ]
  have hN : t.val < 60 := lt_of_lt_of_eq t.isLt (show cfg0.N = 60 from N_0)
  rw [show (dats m 0 c).leavesExact 0 t = owns (c : Thread nD τ) (ms0 t) fullShare ((dats m 0 c).after 0 t) from by
    unfold Dat.leavesExact; rw [live_in0 t], after_in0]
  rw [show (dats m 0 c).leavesExact 1 t = owns (c : Thread nD τ) (ms1 t) fullShare ((dats m 0 c).after 1 t) from by
    unfold Dat.leavesExact; rw [live_in1 t], after_in1]
  rw [show (dats m 0 c).leavesExact 2 t = owns (c : Thread nD τ) (ms2 t) fullShare ((dats m 0 c).after 2 t) from by
    unfold Dat.leavesExact; rw [live_in2 t], after_in2]
  unfold PhiS
  by_cases h0 : t.val < 28
  · rw [Dat.leavesExact_idle (dats m 0 c) 3 t (idle_out_phase1 t h0) (noflush_out_phase1 t h0)]
    iintro ⟨⟨⟨%S, %hS, HS0⟩, Hg⟩, Ho, ⟨%d0, H0⟩, ⟨%d1, H1⟩, ⟨%d2, H2⟩, ⟨%d3, H3⟩⟩
    iapply ((runA c (grid0.coords t) _ _ _ _ _ _ _ _ _ _ ((inPhase1_iff t).mpr h0) (fun h => absurd ((inPhase2_iff t).mp h) (by omega))
      (512 * t.val) (slab_offset t h0) (iblk m c 0 t) (iblk m c 1 t) (iblk m c 2 t) ((dats m 0 c).before 3 t d3) S) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact hS.step m
        iexact HS0
      iexact Hg
    isplitl [Ho]; · iexact Ho
    isplitl [H0]; · iexact H0
    isplitl [H1]; · iexact H1
    isplitl [H2]; · iexact H2
    iexists _; iexact H3
  · have h1 : 28 ≤ t.val := by omega
    rw [show (dats m 0 c).leavesExact 3 t = owns (c : Thread nD τ) (ms3 t) fullShare ((dats m 0 c).after 3 t) from by
      unfold Dat.leavesExact; rw [live_out_phase2 t h1], after_out]
    iintro ⟨⟨⟨%S, %hS, HS0⟩, Hg⟩, Ho, ⟨%d0, H0⟩, ⟨%d1, H1⟩, ⟨%d2, H2⟩, ⟨%d3, H3⟩⟩
    obtain rfl : S = hidden m c := hS.eq_hidden m h1
    iapply ((runB c (grid0.coords t) _ _ _ _ _ _ _ _ _ _ (fun h => absurd ((inPhase1_iff t).mp h) (by omega)) ((inPhase2_iff t).mpr h1)
      (iblk m c 0 t) (iblk m c 1 t) (iblk m c 2 t) ((dats m 0 c).before 3 t d3) (hidden m c)) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact agreesBelow_hidden m c _
        iexact HS0
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is claimed yet. -/
theorem hin (c : Dev nD) : Pipeline.ΦA spec0 c ⊢ (dats m 0 c).Φ 0 := by
  rw [Phi_eq, PhiA_eq]
  unfold PhiS
  iintro ⟨⟨%d, HS0⟩, Hg⟩
  isplitl [HS0]
  · iexists d; isplitr
    · ipureintro; intro y hy; exact absurd hy (by simp)
    iexact HS0
  iexact Hg

/-- After the last point the invariant gives the launch's back: the scratch's contents are forgotten. -/
theorem hout (c : Dev nD) : (dats m 0 c).Φ (Fin.last cfg0.N) ⊢ Pipeline.ΦA spec0 c := by
  rw [Phi_eq, PhiA_eq]
  unfold PhiS
  iintro ⟨⟨%S, -, HS0⟩, Hg⟩
  isplitl [HS0]
  · iexists S; iexact HS0
  iexact Hg

/-! ## The run and the frame -/

set_option backward.isDefEq.respectTransparency.types false in
/-- Every weakly fair execution of the program terminates, and every final state has every array of the pipeline at what
    the write-backs of the proof data leave and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Ffn

end
-- ==== Proof.FfnDataI.lean ====
/- The proof data of the feed-forward pipeline: a grid of 60 points in two phases.

   Points 0 … 27 (phase one): point p multiplies rows [512 p, 512 p + 512) of the first weight matrix
   by the transposed input (4096 x 32), clamps the product below at zero and stores it as rows
   [512 p, 512 p + 512) of a scratch of 14336 x 32 that lives across the points. After point 27 the
   scratch holds the whole hidden activation, transposed.
   Points 28 … 59 (phase two): point 28 + q multiplies rows [128 q, 128 q + 128) of the second weight
   matrix by the whole scratch and stores the 128 x 32 product as its output block.

   The scratch starts at unknown contents, so what it holds between points is stated as a relation:
   after n points its rows below 512 * n are the hidden activation's (the rows above are whatever they
   were). From point 28 on that is the whole scratch. -/
import proofs.«170390_g47425028882858_cont_8to1c4_122_13_alg».proof.Proof.Gen.KernelIdeal.Frame
import proofs.«170390_g47425028882858_cont_8to1c4_122_13_alg».proof.Proof.Gen.KernelIdeal.Skeleton
import Idealize.ShloMosaic.Lib.WritesUnit
import Idealize.ShloMosaic.Lib.ValueIdx

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two phases, decided over the grid -/

/-- The first branch of the body (phase one) is taken -/
abbrev inPhase1 (i : grid0.Coords) : Prop := k0_cond1 i = 1#1
/-- exactly at the points below 28; -/
theorem inPhase1_iff : ∀ t : Fin cfg0.N, inPhase1 (grid0.coords t) ↔ t.val < 28 :=
  (by decide +kernel : ∀ t : Fin grid0.N, inPhase1 (grid0.coords t) ↔ t.val < 28)

/-- the second branch (phase two) -/
abbrev inPhase2 (i : grid0.Coords) : Prop := k0_cond2 i = 1#1
/-- exactly at the points from 28 on. -/
theorem inPhase2_iff : ∀ t : Fin cfg0.N, inPhase2 (grid0.coords t) ↔ 28 ≤ t.val :=
  (by decide +kernel : ∀ t : Fin grid0.N, inPhase2 (grid0.coords t) ↔ 28 ≤ t.val)

/-- The three input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- The output window is idle through phase one, and is not written back there; -/
theorem idle_out_phase1 : ∀ t : Fin cfg0.N, t.val < 28 → cfg0.idle 3 (grid0.coords t) = true := by decide +kernel
theorem noflush_out_phase1 : ∀ t : Fin cfg0.N, t.val < 28 → (cfg0.win 3).flush t = false := by decide +kernel
/-- in phase two it is live, and every point writes its block back. -/
theorem live_out_phase2 : ∀ t : Fin cfg0.N, 28 ≤ t.val → cfg0.idle 3 (grid0.coords t) = false := by decide +kernel
theorem flush_out_phase2 : ∀ t : Fin cfg0.N, 28 ≤ t.val → (cfg0.win 3).flush t = true := by decide +kernel

/-! ## The staging memrefs at a point, and the scratch -/

abbrev ms0 (t : Fin cfg0.N) : Memref sig .tc .vmem S4096x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x14336 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x32 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scr : Memref sig .tc .vmem S14336x32 .f32 := Memref.whole cc0_scratch0

/-- The launch's invariant: the scratch at some contents, and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the scratch and the output blocks hold -/

/-- The three input blocks at a point, at their literal types. -/
abbrev xtBlk (c : Dev nD) (t : Fin cfg0.N) : Vec F S4096x32 .f32 := iblk m c 0 t
abbrev w1Blk (c : Dev nD) (t : Fin cfg0.N) : Vec F S512x4096 .f32 := iblk m c 1 t
abbrev w2Blk (c : Dev nD) (t : Fin cfg0.N) : Vec F S128x14336 .f32 := iblk m c 2 t

/-- The 512 rows of the hidden activation that point `p` computes. -/
def hiddenRows (c : Dev nD) (p : Fin cfg0.N) : Vec F S512x32 .f32 := k0_pay1 (w1Blk m c p) (xtBlk m c p)

theorem div512_lt {r : ℕ} (h : r < 14336) : r / 512 < cfg0.N := by
  have : cfg0.N = 60 := N_0
  omega

/-- The whole hidden activation, transposed: row r is row r % 512 of what point r / 512 computes. -/
def hidden (c : Dev nD) : Vec F S14336x32 .f32 := fun y =>
  hiddenRows m c ⟨(y 0).val / 512, div512_lt (y 0).isLt⟩ (ix2 ⟨(y 0).val % 512, Nat.mod_lt _ (by decide)⟩ (y 1))

/-- Contents `S` of the scratch agree with the hidden activation on the rows the first `n` points wrote. -/
def AgreesBelow (c : Dev nD) (n : ℕ) (S : Vec F S14336x32 .f32) : Prop :=
  ∀ y : S14336x32.Idx, (y 0).val < 512 * n → S y = hidden m c y

/-- From 28 points on the scratch is the hidden activation. -/
theorem AgreesBelow.eq_hidden {c : Dev nD} {n : ℕ} {S : Vec F S14336x32 .f32} (h : AgreesBelow m c n S) (hn : 28 ≤ n) :
    S = hidden m c :=
  funext fun y => h y (by have := (y 0).isLt; show (y 0).val < 512 * n; have h2 : (y 0).val < 14336 := this; omega)

/-- The output block of a phase-two point: its block of the second weight matrix times the hidden activation. -/
def outBlk (c : Dev nD) (t : Fin cfg0.N) : Vec F S128x32 .f32 := k0_pay2 (w2Blk m c t) (hidden m c)

/-- The invariant before point `n`: the scratch at contents that agree with the hidden activation below row 512 * n,
    and the generator register. -/
def PhiS (c : Dev nD) (n : ℕ) : sProp 𝕄 :=
  iprop(iprop(∃ S, ⌜AgreesBelow m c n S⌝ ∗ owns (c : Thread nD τ) scr fullShare S) ∗ (∃ r, prngReg c r))

/-- The proof data: the arrays as the region finds them; each input's staging buffer at its block; the output's at
    `outBlk` (consulted only in phase two); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = outBlk m c t := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d

theorem Phi_eq (c : Dev nD) (t : Fin (cfg0.N + 1)) : (dats m 0 c).Φ t = PhiS m c t.val := by dsimp only [dats]

end Cert.KernelIdeal.Ffn

end
-- ==== Proof.FfnBodyI.lean ====
/- The body of the pipeline at a point, in its two cases, and the run of the whole program.
   Phase one: the body overwrites rows [512 p, 512 p + 512) of the scratch with the clamped product and leaves
   everything else (the output's staging buffer included) as it found it.
   Phase two: the body overwrites the output's staging buffer with the product of the weight block and the whole
   scratch, and leaves the scratch as it found it. -/
import proofs.«170390_g47425028882858_cont_8to1c4_122_13_alg».proof.Proof.FfnDataI
import Idealize.ShloMosaic.Lib.Pipeline.Value
set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → ℕ) = fun _ => 0 := by
  funext a; fin_cases a <;> rfl

/-- In phase one the body's store into the scratch starts at row 512 t, column 0. -/
theorem slab_offset : ∀ t : Fin cfg0.N, t.val < 28 → k0_off1 (grid0.coords t) = ![512 * t.val, 0] :=
  (by decide +kernel : ∀ t : Fin grid0.N, t.val < 28 → k0_off1 (grid0.coords t) = ![512 * t.val, 0])

/-- Contents `xs` of the scratch with its rows [o, o + 512) replaced by `P`. -/
def slabStore (o : ℕ) (P : Vec F S512x32 .f32) (xs : Vec F S14336x32 .f32) : Vec F S14336x32 .f32 := fun y =>
  if h : o ≤ (y 0).val ∧ (y 0).val < o + 512 then P (ix2 ⟨(y 0).val - o, by omega⟩ (y 1)) else xs y

/-- A row of the hidden activation inside point t's slab is that point's row. -/
theorem hidden_of_slab (c : Dev nD) (t : Fin cfg0.N) (y : S14336x32.Idx) (h : 512 * t.val ≤ (y 0).val ∧ (y 0).val < 512 * t.val + 512) :
    hidden m c y = hiddenRows m c t (ix2 ⟨(y 0).val - 512 * t.val, by omega⟩ (y 1)) := by
  unfold hidden
  have e1 : (⟨(y 0).val / 512, div512_lt (y 0).isLt⟩ : Fin cfg0.N) = t := Fin.ext (by show (y 0).val / 512 = t.val; omega)
  have e2 : (⟨(y 0).val % 512, Nat.mod_lt _ (by decide)⟩ : Fin 512) = ⟨(y 0).val - 512 * t.val, by omega⟩ :=
    Fin.ext (by show (y 0).val % 512 = (y 0).val - 512 * t.val; omega)
  rw [e1, e2]

/-- Storing point t's rows keeps the agreement and extends it by one slab. -/
theorem AgreesBelow.step {c : Dev nD} {t : Fin cfg0.N} {S : Vec F S14336x32 .f32} (h : AgreesBelow m c t.val S) :
    AgreesBelow m c (t.val + 1) (slabStore (512 * t.val) (hiddenRows m c t) S) := by
  intro y hy
  unfold slabStore
  by_cases hin : 512 * t.val ≤ (y 0).val ∧ (y 0).val < 512 * t.val + 512
  · rw [dif_pos hin, hidden_of_slab m c t y hin]
  · rw [dif_neg hin]
    exact h y (by omega)

/-- The hidden activation agrees with itself below every row. -/
theorem agreesBelow_hidden (c : Dev nD) (n : ℕ) : AgreesBelow m c n (hidden m c) := fun _ _ => rfl

/-! ## The body in its two cases -/

set_option maxHeartbeats 1000000 in
/-- PHASE ONE: on whole staging memrefs at contents `x0`, `x1`, `x2`, `xi3` and the scratch at `xs`, the store's offsets being
    row `o`, column 0, the body runs to the continuation holding everything as it was but the scratch, whose rows
    [o, o + 512) are now the clamped product of the weight block and the transposed input. -/
theorem runA (c : Dev nD) (i : grid0.Coords) (arg1 : Memref sig .tc .vmem S4096x32 .f32) (harg1 : arg1.IsWhole) (arg2 : Memref sig .tc .vmem S512x4096 .f32) (harg2 : arg2.IsWhole) (arg3 : Memref sig .tc .vmem S128x14336 .f32) (harg3 : arg3.IsWhole) (arg4 : Memref sig .tc .vmem S128x32 .f32) (harg4 : arg4.IsWhole) (arg5 : Memref sig .tc .vmem S14336x32 .f32) (harg5 : arg5.IsWhole) (hc0 : inPhase1 i) (hc1 : ¬inPhase2 i)
    (o : ℕ) (ho : k0_off1 i = ![o, 0])
    (x0 : Vec F S4096x32 .f32) (x1 : Vec F S512x4096 .f32) (x2 : Vec F S128x14336 .f32) (xi3 : Vec F S128x32 .f32) (xs : Vec F S14336x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare (slabStore o (k0_pay1 x1 x0) xs)) -∗ K ⟨⟩))
          ⊢ wp frame (wpE (defs₀ (F := F)) Variants.none c none) E (cc0__ffn_kernel i arg1 harg1 arg2 harg2 arg3 harg3 arg4 harg4 arg5 harg5) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap; · iexact HS0
    ipureintro
    funext y
    rw [View.read_writes_cons_rows (o := o) (W := 512) arg5.view (harg5.unread xs) (k0_off1_inb i hc0) _ [] y ho
      (show S512x32.size (0 : Fin 2) = 512 from rfl) (show S512x32.size (1 : Fin 2) = (![14336, 32] : Fin 2 → ℕ) 1 from rfl)]
    unfold slabStore
    simp only [View.readAt_eq_ld, harg1.read_unread, harg2.read_unread, View.ld_unit_zero (S := S512x4096) zero2, View.ld_unit_zero (S := S4096x32) zero2]
    by_cases hin : o ≤ (y 0).val ∧ (y 0).val < o + 512
    · rw [dif_pos hin, dif_pos hin]
      refine congrArg (k0_pay1 x1 x0) (funext fun a => Fin.ext ?_)
      match a with
      | ⟨0, _⟩ => rfl
      | ⟨1, _⟩ => exact Nat.sub_zero _
    · rw [dif_neg hin, dif_neg hin]
      exact congrFun (harg5.read_unread xs) y

set_option maxHeartbeats 1000000 in
/-- PHASE TWO: on whole staging memrefs at contents `x0`, `x1`, `x2`, `xi3` and the scratch at `xs`, the body runs to the
    continuation holding everything as it was but the output's staging buffer, which is now the product of the weight
    block and the scratch. -/
theorem runB (c : Dev nD) (i : grid0.Coords) (arg1 : Memref sig .tc .vmem S4096x32 .f32) (harg1 : arg1.IsWhole) (arg2 : Memref sig .tc .vmem S512x4096 .f32) (harg2 : arg2.IsWhole) (arg3 : Memref sig .tc .vmem S128x14336 .f32) (harg3 : arg3.IsWhole) (arg4 : Memref sig .tc .vmem S128x32 .f32) (harg4 : arg4.IsWhole) (arg5 : Memref sig .tc .vmem S14336x32 .f32) (harg5 : arg5.IsWhole) (hc0 : ¬inPhase1 i) (hc1 : inPhase2 i)
    (x0 : Vec F S4096x32 .f32) (x1 : Vec F S512x4096 .f32) (x2 : Vec F S128x14336 .f32) (xi3 : Vec F S128x32 .f32) (xs : Vec F S14336x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare (k0_pay2 x2 xs) ∗ owns (c : Thread nD τ) arg5 fullShare xs) -∗ K ⟨⟩))
          ⊢ wp frame (wpE (defs₀ (F := F)) Variants.none c none) E (cc0__ffn_kernel i arg1 harg1 arg2 harg2 arg3 harg3 arg4 harg4 arg5 harg5) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      funext y
      rw [View.read_writes_cons_unit_of_mem arg4.view (harg4.unread xi3) inb_S128x32_S128x32_0_0 _ [] y y rfl
        (Fin.forall_fin_two.mpr ⟨(Nat.zero_add _).symm, (Nat.zero_add _).symm⟩)]
      simp only [View.readAt_eq_ld, harg3.read_unread, harg5.read_unread, View.ld_unit_zero (S := S128x14336) zero2, View.ld_unit_zero (S := S14336x32) zero2]
    iexists _; isplitr; · ipureintro; exact harg5.read_unread _
    iexact HS0

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. In phase one the invariant hands it the scratch at contents agreeing with the hidden activation
    below row 512 t and takes it back agreeing below row 512 (t + 1); the output's buffer, idle and not written back, goes
    back as it came. In phase two the scratch IS the hidden activation, stays so, and the output's buffer is left at the
    point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).owesAt () t.succ = (dats m 0 c).owesAt () t.castSucc from rfl]
  rw [Phi_eq m c t.castSucc, Phi_eq m c t.succ, Fin.coe_castSucc, Fin.val_succ]
  have hN : t.val < 60 := lt_of_lt_of_eq t.isLt (show cfg0.N = 60 from N_0)
  rw [show (dats m 0 c).leavesExact 0 t = owns (c : Thread nD τ) (ms0 t) fullShare ((dats m 0 c).after 0 t) from by
    unfold Dat.leavesExact; rw [live_in0 t], after_in0]
  rw [show (dats m 0 c).leavesExact 1 t = owns (c : Thread nD τ) (ms1 t) fullShare ((dats m 0 c).after 1 t) from by
    unfold Dat.leavesExact; rw [live_in1 t], after_in1]
  rw [show (dats m 0 c).leavesExact 2 t = owns (c : Thread nD τ) (ms2 t) fullShare ((dats m 0 c).after 2 t) from by
    unfold Dat.leavesExact; rw [live_in2 t], after_in2]
  unfold PhiS
  by_cases h0 : t.val < 28
  · rw [Dat.leavesExact_idle (dats m 0 c) 3 t (idle_out_phase1 t h0) (noflush_out_phase1 t h0)]
    iintro ⟨⟨⟨%S, %hS, HS0⟩, Hg⟩, Ho, ⟨%d0, H0⟩, ⟨%d1, H1⟩, ⟨%d2, H2⟩, ⟨%d3, H3⟩⟩
    iapply ((runA c (grid0.coords t) _ _ _ _ _ _ _ _ _ _ ((inPhase1_iff t).mpr h0) (fun h => absurd ((inPhase2_iff t).mp h) (by omega))
      (512 * t.val) (slab_offset t h0) (iblk m c 0 t) (iblk m c 1 t) (iblk m c 2 t) ((dats m 0 c).before 3 t d3) S) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact hS.step m
        iexact HS0
      iexact Hg
    isplitl [Ho]; · iexact Ho
    isplitl [H0]; · iexact H0
    isplitl [H1]; · iexact H1
    isplitl [H2]; · iexact H2
    iexists _; iexact H3
  · have h1 : 28 ≤ t.val := by omega
    rw [show (dats m 0 c).leavesExact 3 t = owns (c : Thread nD τ) (ms3 t) fullShare ((dats m 0 c).after 3 t) from by
      unfold Dat.leavesExact; rw [live_out_phase2 t h1], after_out]
    iintro ⟨⟨⟨%S, %hS, HS0⟩, Hg⟩, Ho, ⟨%d0, H0⟩, ⟨%d1, H1⟩, ⟨%d2, H2⟩, ⟨%d3, H3⟩⟩
    obtain rfl : S = hidden m c := hS.eq_hidden m h1
    iapply ((runB c (grid0.coords t) _ _ _ _ _ _ _ _ _ _ (fun h => absurd ((inPhase1_iff t).mp h) (by omega)) ((inPhase2_iff t).mpr h1)
      (iblk m c 0 t) (iblk m c 1 t) (iblk m c 2 t) ((dats m 0 c).before 3 t d3) (hidden m c)) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact agreesBelow_hidden m c _
        iexact HS0
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is claimed yet. -/
theorem hin (c : Dev nD) : Pipeline.ΦA spec0 c ⊢ (dats m 0 c).Φ 0 := by
  rw [Phi_eq, PhiA_eq]
  unfold PhiS
  iintro ⟨⟨%d, HS0⟩, Hg⟩
  isplitl [HS0]
  · iexists d; isplitr
    · ipureintro; intro y hy; exact absurd hy (by simp)
    iexact HS0
  iexact Hg

/-- After the last point the invariant gives the launch's back: the scratch's contents are forgotten. -/
theorem hout (c : Dev nD) : (dats m 0 c).Φ (Fin.last cfg0.N) ⊢ Pipeline.ΦA spec0 c := by
  rw [Phi_eq, PhiA_eq]
  unfold PhiS
  iintro ⟨⟨%S, -, HS0⟩, Hg⟩
  isplitl [HS0]
  · iexists S; iexact HS0
  iexact Hg

/-! ## The run and the frame -/

set_option backward.isDefEq.respectTransparency.types false in
/-- Every weakly fair execution of the program terminates, and every final state has every array of the pipeline at what
    the write-backs of the proof data leave and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Ffn

end
-- ==== Proof.FfnArrayI.lean ====
/- From the output blocks to the output array, and through the two host operations after the region.
   Phase-two point 28 + q writes rows [128 q, 128 q + 128) of the 4096 x 32 result; the 32 blocks tile it.
   The host then transposes the result to 32 x 4096 and splits its 32 rows into 8 x 4 tokens. -/
import proofs.«170390_g47425028882858_cont_8to1c4_122_13_alg».proof.Proof.FfnDataI
import Idealize.ShloMosaic.Lib.Pipeline.Value
import Idealize.ShloMosaic.Lib.StableHlo.Run
set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

theorem outPoint_lt {r : ℕ} (h : r < 4096) : 28 + r / 128 < cfg0.N := by
  have : cfg0.N = 60 := N_0
  omega

theorem token_lt (b : Fin 8) (t : Fin 4) : 4 * b.val + t.val < 32 := by omega

/-- The 4096 x 32 result the region leaves: row r is row r % 128 of the block point 28 + r / 128 writes. -/
def outArr (c : Dev nD) : Vec F S4096x32 .f32 := fun y =>
  outBlk m c ⟨28 + (y 0).val / 128, outPoint_lt (y 0).isLt⟩ (ix2 ⟨(y 0).val % 128, Nat.mod_lt _ (by decide)⟩ (y 1))

/-- The output window's block index, decided over the grid: from point 28 on it is the point less 28 on the rows,
    zero on the columns. -/
theorem out_index : ∀ t : Fin cfg0.N, 28 ≤ t.val → win0_3.index t (0 : Fin 2) = t.val - 28 ∧ win0_3.index t (1 : Fin 2) = 0 :=
  (by decide +kernel : ∀ t : Fin grid0.N, _)

/-- An index of the result is in point `t`'s block iff each coordinate is in the block's range on its axis. -/
theorem mem_outBlk (t : Fin cfg0.N) (i : S4096x32.Idx) :
    i ∈ ((cfg0.win 3).blk t).view.set ↔ ∀ a : Fin 2, win0_3.index t a * S128x32.size a ≤ (i a).val ∧ (i a).val < win0_3.index t a * S128x32.size a + S128x32.size a := by
  show i ∈ ((View.whole main_call0_v2).slice (win0_3.rect t)).set ↔ _
  rw [View.set_slice_whole, Rect.mem_set_unit]
  exact Iff.rfl

/-- An output block read at equal points and equal coordinates. -/
theorem outBlk_congr (c : Dev nD) {t t' : Fin cfg0.N} (ht : t.val = t'.val) {y y' : S128x32.Idx}
    (h0 : (y 0).val = (y' 0).val) (h1 : (y 1).val = (y' 1).val) : outBlk m c t y = outBlk m c t' y' := by
  obtain rfl : t = t' := Fin.ext ht
  obtain rfl : y = y' := Shape.idx_ext₂ h0 h1
  rfl

/-- What a phase-two point writes back is its block of the result: row y of point t's block is row (t - 28) * 128 + y. -/
theorem flushed_out (c : Dev nD) (t : Fin cfg0.N) (ht : 28 ≤ t.val) :
    (dats m 0 c).flushed 3 t = ((cfg0.win 3).blk t).view.read (Elt F) (outArr m c) := by
  show (cfg0.win 3).cut (grid0.coords t) ((dats m 0 c).after 3 t) = _
  rw [after_out]
  funext j
  obtain ⟨e0, e1⟩ := out_index t ht
  have hj0 : (j 0).val < 128 := (j 0).isLt
  have hj1 : (j 1).val < 32 := (j 1).isLt
  have h0 : ((((cfg0.win 3).blk t).view.emb j) 0).val = win0_3.index t (0 : Fin 2) * 128 + 1 * (j 0).val := rfl
  have h1 : ((((cfg0.win 3).blk t).view.emb j) 1).val = win0_3.index t (1 : Fin 2) * 32 + 1 * (j 1).val := rfl
  show outBlk m c t _ = outArr m c (((cfg0.win 3).blk t).view.emb j)
  unfold outArr
  refine outBlk_congr m c ?_ ?_ ?_
  · show t.val = 28 + ((((cfg0.win 3).blk t).view.emb j) 0).val / 128
    rw [h0, e0]; omega
  · show (j 0).val = ((((cfg0.win 3).blk t).view.emb j) 0).val % 128
    rw [h0, e0]; omega
  · show (j 1).val = ((((cfg0.win 3).blk t).view.emb j) 1).val
    rw [h1, e1]; omega

/-- Row r of the result is in the block of point 28 + r / 128, which writes it back. -/
theorem out_cover (i : S4096x32.Idx) : ∃ t : Fin cfg0.N, (cfg0.win 3).flush t = true ∧ i ∈ ((cfg0.win 3).blk t).view.set := by
  have hi0 : (i 0).val < 4096 := (i 0).isLt
  have hi1 : (i 1).val < 32 := (i 1).isLt
  refine ⟨⟨28 + (i 0).val / 128, outPoint_lt hi0⟩, flush_out_phase2 _ (Nat.le_add_right _ _), ?_⟩
  obtain ⟨e0, e1⟩ := out_index ⟨28 + (i 0).val / 128, outPoint_lt hi0⟩ (Nat.le_add_right _ _)
  have e0' : win0_3.index ⟨28 + (i 0).val / 128, outPoint_lt hi0⟩ (0 : Fin 2) = (i 0).val / 128 := by
    rw [e0]; show 28 + (i 0).val / 128 - 28 = _; omega
  rw [mem_outBlk]
  intro a
  match a with
  | ⟨0, _⟩ => show win0_3.index _ (0 : Fin 2) * 128 ≤ (i 0).val ∧ (i 0).val < win0_3.index _ (0 : Fin 2) * 128 + 128; rw [e0']; omega
  | ⟨1, _⟩ => show win0_3.index _ (1 : Fin 2) * 32 ≤ (i 1).val ∧ (i 1).val < win0_3.index _ (1 : Fin 2) * 32 + 32; rw [e1]; omega

/-- The output array after the run. -/
theorem final_out (c : Dev nD) : (dats m 0 c).arrAt 3 cfg0.N = outArr m c :=
  (dats m 0 c).arrAt_eq_of_cover 3 (outArr m c)
    (fun t hf => flushed_out m c t (by
      by_contra h
      rw [noflush_out_phase1 t (by omega)] at hf
      exact Bool.false_ne_true hf))
    out_cover

/-- The program's result: entry (b, t, d) is entry (d, 4 b + t) of the region's result. -/
theorem tail_result (c : Dev nD) (i : S8x4x4096.Idx) :
    Pipeline.afterTail₀ cfgs (dats m) 0 (V0 m) [hostOps1] c main_v0 i
      = outArr m c (ix2 (i 2) ⟨4 * (i 0).val + (i 1).val, token_lt (i 0) (i 1)⟩) := by
  have hreg : Pipeline.withArrays spec0 c (V0 m c) (fun w => (dats m 0 c).arrAt w cfg0.N) (Proc.devRef .tc main_call0_v2) = outArr m c :=
    (Pipeline.withArrays_arr spec0 launch0.win.arr_inj c _ _ 3).trans (final_out m c)
  unfold Pipeline.afterTail₀
  show StableHlo.after hostOps1 _ (Proc.devRef .tc main_v0) i = _
  after_results
  show shapeCast S8x4x4096 (transpose S32x4096 [1, 0] (Pipeline.withArrays spec0 c (V0 m c) (fun w => (dats m 0 c).arrAt w cfg0.N) (Proc.devRef .tc main_call0_v2)) transposes_S4096x32_S32x4096_1_0) shapeCasts_S32x4096_S8x4x4096 i = _
  rw [hreg]
  have hi0 : (i 0).val < 8 := (i 0).isLt
  have hi1 : (i 1).val < 4 := (i 1).isLt
  have hi2 : (i 2).val < 4096 := (i 2).isLt
  -- the split of 32 rows into 8 x 4 keeps the row-major position: row 4 b + t
  refine (shapeCast_apply _ _ i (ix2 ⟨4 * (i 0).val + (i 1).val, token_lt (i 0) (i 1)⟩ (i 2)) ?_).trans ?_
  · rw [Shape.rowMajor_val_two, Shape.rowMajor_val_three]
    show (4 * (i 0).val + (i 1).val) * 4096 + (i 2).val = ((i 0).val * 4 + (i 1).val) * 4096 + (i 2).val
    omega
  -- the transpose swaps the two coordinates
  · exact transpose_apply _ _ _ _ _ (fun b => match b with | ⟨0, _⟩ => rfl | ⟨1, _⟩ => rfl)

end Cert.KernelIdeal.Ffn

end
-- ==== Proof.FfnBlocksI.lean ====
/- The three input blocks at a point, read as entries of the program's arguments.
   The first window holds the whole transposed input (a host reshape to 32 x 4096 and a transpose before the region);
   in phase one point p's block of the first weight matrix is its rows [512 p, 512 p + 512);
   in phase two point 28 + q's block of the second weight matrix is its rows [128 q, 128 q + 128). -/
import proofs.«170390_g47425028882858_cont_8to1c4_122_13_alg».proof.Proof.FfnDataI
import Idealize.ShloMosaic.Lib.Pipeline.Value
import Idealize.ShloMosaic.Lib.StableHlo.Run
set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

theorem tokDiv_lt (n : Fin 32) : n.val / 4 < 8 := by omega
theorem w1Row_lt {t : ℕ} (ht : t < 28) (r : Fin 512) : 512 * t + r.val < 14336 := by omega
theorem w2Row_lt {t : ℕ} (h28 : 28 ≤ t) (ht : t < 60) (r : Fin 128) : 128 * (t - 28) + r.val < 4096 := by omega

/-! ## Which block of its array each window holds at a point

A block's coordinate in its array is always (block index) x (block extent) + (coordinate inside the block). The block
indices are functions of the point alone, so they are decided once over the 60 points. -/

/-- The first window's block is the whole array at every point: block index (0, 0). -/
theorem xtBlk_index : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- In phase one the second window's block index is (t, 0): the map min(t, 27) is t below 28. -/
theorem w1Blk_index : ∀ t : Fin cfg0.N, t.val < 28 → win0_1.index t (0 : Fin 2) = t.val ∧ win0_1.index t (1 : Fin 2) = 0 :=
  (by decide +kernel : ∀ t : Fin grid0.N, t.val < 28 → win0_1.index t (0 : Fin 2) = t.val ∧ win0_1.index t (1 : Fin 2) = 0)

/-- In phase two the third window's block index is (t - 28, 0): the map max(t - 28, 0) is t - 28 from 28 on. -/
theorem w2Blk_index : ∀ t : Fin cfg0.N, 28 ≤ t.val → win0_2.index t (0 : Fin 2) = t.val - 28 ∧ win0_2.index t (1 : Fin 2) = 0 :=
  (by decide +kernel : ∀ t : Fin grid0.N, 28 ≤ t.val → win0_2.index t (0 : Fin 2) = t.val - 28 ∧ win0_2.index t (1 : Fin 2) = 0)

/-- The array the first window stages, as the region finds it: the input (8 x 4 x 4096) reshaped to 32 x 4096 and then
    transposed to 4096 x 32 by the two host operations before the region. -/
theorem xtArr_eq (c : Dev nD) :
    (V m c main_call0_v1 : S4096x32.Idx → Elt F .f32)
      = transpose S4096x32 [1, 0]
          (shapeCast S32x4096 (m ((c : Thread nD τ).loc main_arg0) : S8x4x4096.Idx → Elt F .f32) shapeCasts_S8x4x4096_S32x4096)
          transposes_S32x4096_S4096x32_1_0 := by
  show StableHlo.after hostOps0 (fun b => m (c, b)) (Proc.devRef .tc main_call0_v1) = _
  after_results
  rfl

/-- Entry (k, n) of the transposed input is entry (n / 4, n % 4, k) of the input. -/
theorem xtBlk_apply (c : Dev nD) (t : Fin cfg0.N) (k : Fin 4096) (n : Fin 32) :
    xtBlk m c t (ix2 k n)
      = m ((c : Thread nD τ).loc main_arg0) (ix3 ⟨n.val / 4, tokDiv_lt n⟩ ⟨n.val % 4, Nat.mod_lt _ (by decide)⟩ k) := by
  obtain ⟨e0, e1⟩ := xtBlk_index t
  show V m c main_call0_v1 (((cfg0.win 0).blk t).view.emb (ix2 k n)) = _
  -- the block is the whole array: entry (k, n) of the block is entry (k, n) of the array
  have hemb : ((cfg0.win 0).blk t).view.emb (ix2 k n) = ix2 k n := by
    funext a; apply Fin.ext
    match a with
    | ⟨0, _⟩ => show win0_0.index t (0 : Fin 2) * 4096 + 1 * k.val = k.val; omega
    | ⟨1, _⟩ => show win0_0.index t (1 : Fin 2) * 32 + 1 * n.val = n.val; omega
  rw [hemb, xtArr_eq]
  -- the transpose: entry (k, n) of the result is entry (n, k) of the 32 x 4096 operand
  refine (transpose_apply [1, 0] _ transposes_S32x4096_S4096x32_1_0 (ix2 k n) (ix2 n k)
    (fun b => match b with | ⟨0, _⟩ => rfl | ⟨1, _⟩ => rfl)).trans ?_
  -- the reshape keeps the row-major position: (n / 4 * 4 + n % 4) * 4096 + k = n * 4096 + k
  refine shapeCast_apply _ shapeCasts_S8x4x4096_S32x4096 (ix2 n k)
    (ix3 ⟨n.val / 4, tokDiv_lt n⟩ ⟨n.val % 4, Nat.mod_lt _ (by decide)⟩ k) ?_
  rw [Shape.rowMajor_val_three, Shape.rowMajor_val_two]
  show (n.val / 4 * 4 + n.val % 4) * 4096 + k.val = n.val * 4096 + k.val
  omega

/-- In phase one, entry (r, k) of point t's block of the first weight matrix is its entry (512 t + r, k). -/
theorem w1Blk_apply (c : Dev nD) (t : Fin cfg0.N) (ht : t.val < 28) (r : Fin 512) (k : Fin 4096) :
    w1Blk m c t (ix2 r k) = m ((c : Thread nD τ).loc main_arg1) (ix2 ⟨512 * t.val + r.val, w1Row_lt ht r⟩ k) := by
  obtain ⟨e0, e1⟩ := w1Blk_index t ht
  show V m c main_arg1 (((cfg0.win 1).blk t).view.emb (ix2 r k)) = _
  -- no host operation before the region writes the first weight matrix
  rw [V_main_arg1]
  -- row: t * 512 + r; column: 0 * 4096 + k
  refine congrArg _ (funext fun a => Fin.ext ?_)
  match a with
  | ⟨0, _⟩ => show win0_1.index t (0 : Fin 2) * 512 + 1 * r.val = 512 * t.val + r.val; omega
  | ⟨1, _⟩ => show win0_1.index t (1 : Fin 2) * 4096 + 1 * k.val = k.val; omega

/-- In phase two, entry (r, j) of point t's block of the second weight matrix is its entry (128 (t - 28) + r, j). -/
theorem w2Blk_apply (c : Dev nD) (t : Fin cfg0.N) (ht : 28 ≤ t.val) (r : Fin 128) (j : Fin 14336) :
    w2Blk m c t (ix2 r j)
      = m ((c : Thread nD τ).loc main_arg2) (ix2 ⟨128 * (t.val - 28) + r.val, w2Row_lt ht (lt_of_lt_of_eq t.isLt N_0) r⟩ j) := by
  obtain ⟨e0, e1⟩ := w2Blk_index t ht
  show V m c main_arg2 (((cfg0.win 2).blk t).view.emb (ix2 r j)) = _
  -- no host operation before the region writes the second weight matrix
  rw [V_main_arg2]
  -- row: (t - 28) * 128 + r; column: 0 * 14336 + j
  refine congrArg _ (funext fun a => Fin.ext ?_)
  match a with
  | ⟨0, _⟩ => show win0_2.index t (0 : Fin 2) * 128 + 1 * r.val = 128 * (t.val - 28) + r.val; omega
  | ⟨1, _⟩ => show win0_2.index t (1 : Fin 2) * 14336 + 1 * j.val = j.val; omega

end Cert.KernelIdeal.Ffn

end
-- ==== Proof.FfnPayI.lean ====
/- The two matrix products of the body read at an entry, over the extended reals: a product into a zero
   accumulator is the plain sum over the contracted axis, and the clamp is a maximum with zero. -/
import proofs.«170390_g47425028882858_cont_8to1c4_122_13_alg».proof.Proof.FfnDataI
import Idealize.ShloMosaic.PureOps.Ideal.Laws
import Idealize.ShloMosaic.Lib.Pipeline.Value
import Idealize.ShloMosaic.Lib.ValueIdx
set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

open scoped BigOperators

/-! ## The operand indices of the two products

Both products contract the left operand's columns against the right operand's rows; neither has a batch axis. At output
entry (r, n) and contracted position k the left operand is read at (r, k) and the right at (k, n). -/

/-- The left operand's index of the first product: its row is the output's row, -/
theorem lhs_first_0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
/-- its column the contracted position. -/
theorem lhs_first_1 (i : S512x32.Idx) (q : dot_S512x4096_S4096x32_S512x32_1_0_0_1_n_n.contr.Idx) :
    (dot_S512x4096_S4096x32_S512x32_1_0_0_1_n_n.lhsIdx i q 1).val = (q ⟨0, by decide⟩).val :=
  dot_S512x4096_S4096x32_S512x32_1_0_0_1_n_n.lhsIdx_val_of_single rfl i q
/-- The right operand's index: its row is the contracted position, -/
theorem rhs_first_0 (i : S512x32.Idx) (q : dot_S512x4096_S4096x32_S512x32_1_0_0_1_n_n.contr.Idx) :
    (dot_S512x4096_S4096x32_S512x32_1_0_0_1_n_n.rhsIdx i q 0).val = (q ⟨0, by decide⟩).val :=
  dot_S512x4096_S4096x32_S512x32_1_0_0_1_n_n.rhsIdx_val_of_single rfl i q
/-- its column the output's column. -/
theorem rhs_first_1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- The left operand's index of the second product: its row is the output's row, -/
theorem lhs_second_0 (i : S128x32.Idx) (q : dot_S128x14336_S14336x32_S128x32_1_0_0_1_n_n.contr.Idx) :
    (dot_S128x14336_S14336x32_S128x32_1_0_0_1_n_n.lhsIdx i q 0).val = (i 0).val := by
  unfold DotDims.lhsIdx
  rw [dif_neg (show ¬(0 : Fin S128x14336.rank) ∈ dot_S128x14336_S14336x32_S128x32_1_0_0_1_n_n.lhsBatch by decide), dif_pos (show (0 : Fin S128x14336.rank) ∈ dot_S128x14336_S14336x32_S128x32_1_0_0_1_n_n.lhsNonContracting by decide)]
  rfl
/-- its column the contracted position. -/
theorem lhs_second_1 (i : S128x32.Idx) (q : dot_S128x14336_S14336x32_S128x32_1_0_0_1_n_n.contr.Idx) :
    (dot_S128x14336_S14336x32_S128x32_1_0_0_1_n_n.lhsIdx i q 1).val = (q ⟨0, by decide⟩).val :=
  dot_S128x14336_S14336x32_S128x32_1_0_0_1_n_n.lhsIdx_val_of_single rfl i q
/-- The right operand's index: its row is the contracted position, -/
theorem rhs_second_0 (i : S128x32.Idx) (q : dot_S128x14336_S14336x32_S128x32_1_0_0_1_n_n.contr.Idx) :
    (dot_S128x14336_S14336x32_S128x32_1_0_0_1_n_n.rhsIdx i q 0).val = (q ⟨0, by decide⟩).val :=
  dot_S128x14336_S14336x32_S128x32_1_0_0_1_n_n.rhsIdx_val_of_single rfl i q
/-- its column the output's column. -/
theorem rhs_second_1 (i : S128x32.Idx) (q : dot_S128x14336_S14336x32_S128x32_1_0_0_1_n_n.contr.Idx) :
    (dot_S128x14336_S14336x32_S128x32_1_0_0_1_n_n.rhsIdx i q 1).val = (i 1).val := by
  unfold DotDims.rhsIdx
  rw [dif_neg (show ¬(1 : Fin S14336x32.rank) ∈ dot_S128x14336_S14336x32_S128x32_1_0_0_1_n_n.rhsBatch by decide), dif_pos (show (1 : Fin S14336x32.rank) ∈ dot_S128x14336_S14336x32_S128x32_1_0_0_1_n_n.rhsNonContracting by decide)]
  rfl

/-! ## A product into a zero accumulator is the plain sum -/

/-- The first product into a zero accumulator, at entry (r, n): the sum over the contracted axis. -/
theorem mm_first_apply (a : FVec Ideal S512x4096 .f32) (b : FVec Ideal S4096x32 .f32) (r : Fin 512) (n : Fin 32) :
    FloatOps.matmul dot_S512x4096_S4096x32_S512x32_1_0_0_1_n_n none a b (constant (F := Ideal) S512x32 .f32 0x00000000#32) (ix2 r n)
      = ∑ k : Fin 4096, a (ix2 r k) * b (ix2 k n) := by
  rw [Ideal.matmul_constant_zero_apply, ← Equiv.sum_comp (ValueIdx.contrEquiv1 dot_S512x4096_S4096x32_S512x32_1_0_0_1_n_n 4096 rfl rfl).symm]
  refine Finset.sum_congr rfl fun k _ => ?_
  have hk := ValueIdx.contrEquiv1_symm_val dot_S512x4096_S4096x32_S512x32_1_0_0_1_n_n 4096 rfl rfl k
  have el : dot_S512x4096_S4096x32_S512x32_1_0_0_1_n_n.lhsIdx (ix2 r n) ((ValueIdx.contrEquiv1 dot_S512x4096_S4096x32_S512x32_1_0_0_1_n_n 4096 rfl rfl).symm k) = ix2 r k := funext fun a => Fin.ext (by
    match a with
    | ⟨0, _⟩ => exact lhs_first_0 _ _
    | ⟨1, _⟩ => exact (lhs_first_1 _ _).trans hk)
  have er : dot_S512x4096_S4096x32_S512x32_1_0_0_1_n_n.rhsIdx (ix2 r n) ((ValueIdx.contrEquiv1 dot_S512x4096_S4096x32_S512x32_1_0_0_1_n_n 4096 rfl rfl).symm k) = ix2 k n := funext fun a => Fin.ext (by
    match a with
    | ⟨0, _⟩ => exact (rhs_first_0 _ _).trans hk
    | ⟨1, _⟩ => exact rhs_first_1 _ _)
  rw [el, er]

/-- The second product into a zero accumulator, at entry (r, n): the sum over the contracted axis. -/
theorem mm_second_apply (a : FVec Ideal S128x14336 .f32) (b : FVec Ideal S14336x32 .f32) (r : Fin 128) (n : Fin 32) :
    FloatOps.matmul dot_S128x14336_S14336x32_S128x32_1_0_0_1_n_n none a b (constant (F := Ideal) S128x32 .f32 0x00000000#32) (ix2 r n)
      = ∑ k : Fin 14336, a (ix2 r k) * b (ix2 k n) := by
  rw [Ideal.matmul_constant_zero_apply, ← Equiv.sum_comp (ValueIdx.contrEquiv1 dot_S128x14336_S14336x32_S128x32_1_0_0_1_n_n 14336 rfl rfl).symm]
  refine Finset.sum_congr rfl fun k _ => ?_
  have hk := ValueIdx.contrEquiv1_symm_val dot_S128x14336_S14336x32_S128x32_1_0_0_1_n_n 14336 rfl rfl k
  have el : dot_S128x14336_S14336x32_S128x32_1_0_0_1_n_n.lhsIdx (ix2 r n) ((ValueIdx.contrEquiv1 dot_S128x14336_S14336x32_S128x32_1_0_0_1_n_n 14336 rfl rfl).symm k) = ix2 r k := funext fun a => Fin.ext (by
    match a with
    | ⟨0, _⟩ => exact lhs_second_0 _ _
    | ⟨1, _⟩ => exact (lhs_second_1 _ _).trans hk)
  have er : dot_S128x14336_S14336x32_S128x32_1_0_0_1_n_n.rhsIdx (ix2 r n) ((ValueIdx.contrEquiv1 dot_S128x14336_S14336x32_S128x32_1_0_0_1_n_n 14336 rfl rfl).symm k) = ix2 k n := funext fun a => Fin.ext (by
    match a with
    | ⟨0, _⟩ => exact (rhs_second_0 _ _).trans hk
    | ⟨1, _⟩ => exact rhs_second_1 _ _)
  rw [el, er]

/-! ## The two payloads -/

/-- Phase one's payload at entry (r, n): the clamped inner product of row r of the weight block with column n of the
    transposed input. -/
theorem pay1_apply (x1 : Vec Ideal S512x4096 .f32) (x0 : Vec Ideal S4096x32 .f32) (r : Fin 512) (n : Fin 32) :
    k0_pay1 (F := Ideal) x1 x0 (ix2 r n) = max (∑ k : Fin 4096, x1 (ix2 r k) * x0 (ix2 k n)) 0 := by
  unfold k0_pay1
  simp only [shapeCast_self]
  show FloatOps.maximumf
      (FloatOps.matmul dot_S512x4096_S4096x32_S512x32_1_0_0_1_n_n none x1 x0 (constant (F := Ideal) S512x32 .f32 0x00000000#32) (ix2 r n))
      (Ideal.ofBits .f32 0x00000000#32) = _
  rw [mm_first_apply, Ideal.maximumf_def, Ideal.ofBits_zero_f32]

/-- Phase two's payload at entry (r, n): the inner product of row r of the weight block with column n of the scratch. -/
theorem pay2_apply (x2 : Vec Ideal S128x14336 .f32) (h : Vec Ideal S14336x32 .f32) (r : Fin 128) (n : Fin 32) :
    k0_pay2 (F := Ideal) x2 h (ix2 r n) = ∑ j : Fin 14336, x2 (ix2 r j) * h (ix2 j n) := by
  unfold k0_pay2
  exact mm_second_apply x2 h r n

end Cert.KernelIdeal.Ffn

end
-- ==== Proof.Spec.lean ====
/- The feed-forward layer as one function of its three arguments over the extended reals:
   out[b, t, m] = Σ_j max(Σ_k x[b, t, k] · W1[j, k], 0) · W2[m, j],
   with j over the 14336 hidden units and k over the 4096 model dimensions. -/
import Idealize.ShloMosaic.PureOps.Ideal
import Idealize.ShloMosaic.Lib.ValueIdx

noncomputable section

namespace Cert.Spec

open Idealize.ShloMosaic Idealize.ShloMosaic.ValueIdx
open scoped BigOperators

/-- The shapes of the input, of the two weight matrices and of the result. -/
abbrev SX : Shape := ⟨3, ![8, 4, 4096]⟩
abbrev SW1 : Shape := ⟨2, ![14336, 4096]⟩
abbrev SW2 : Shape := ⟨2, ![4096, 14336]⟩

/-- Hidden unit `j` of token `(b, t)`: the token's inner product with row `j` of the first weight matrix, clamped
    below at zero. -/
def hid (x : SX.Idx → EReal) (w1 : SW1.Idx → EReal) (b : Fin 8) (t : Fin 4) (j : Fin 14336) : EReal :=
  max (∑ k : Fin 4096, x (ix3 b t k) * w1 (ix2 j k)) 0

/-- The layer's result: for token `(i 0, i 1)` and model dimension `i 2`, the hidden units' inner product with row
    `i 2` of the second weight matrix. -/
def ffn (x : SX.Idx → EReal) (w1 : SW1.Idx → EReal) (w2 : SW2.Idx → EReal) : SX.Idx → EReal := fun i =>
  ∑ j : Fin 14336, hid x w1 (i 0) (i 1) j * w2 (ix2 (i 2) j)

end Cert.Spec

end
-- ==== Proof.FfnValueI.lean ====
/- The idealized kernel's result is the feed-forward layer of the specification, entry by entry.
   Entry (b, t, d) of the result is entry (d, 4 b + t) of the region's output, which is row d % 128 of the block that
   point 28 + d / 128 writes: the inner product of row d of the second weight matrix with column 4 b + t of the hidden
   activation; and entry (j, 4 b + t) of the hidden activation is row j % 512 of what point j / 512 computes: the clamped
   inner product of row j of the first weight matrix with token (b, t) of the input. The two sides then differ only in
   the order of the factors of each product, and multiplication of extended reals is commutative. -/
import proofs.«170390_g47425028882858_cont_8to1c4_122_13_alg».proof.Proof.FfnDataI
import proofs.«170390_g47425028882858_cont_8to1c4_122_13_alg».proof.Proof.FfnArrayI
import proofs.«170390_g47425028882858_cont_8to1c4_122_13_alg».proof.Proof.FfnBlocksI
import proofs.«170390_g47425028882858_cont_8to1c4_122_13_alg».proof.Proof.FfnPayI
import proofs.«170390_g47425028882858_cont_8to1c4_122_13_alg».proof.Proof.Spec
set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

open scoped BigOperators

/-- Row `d` of the second weight matrix lies in the block of point `28 + d / 128`, at row `d % 128`. -/
theorem value_w2_row (m : (ℓ : Loc nD τ sig) → Buf (Elt Ideal) ℓ) (c : Dev nD) (d : Fin 4096) (j : Fin 14336) :
    w2Blk m c ⟨28 + d.val / 128, outPoint_lt d.isLt⟩ (ix2 ⟨d.val % 128, Nat.mod_lt _ (by decide)⟩ j)
      = m ((c : Thread nD τ).loc main_arg2) (ix2 d j) := by
  rw [w2Blk_apply m c _ (by show 28 ≤ 28 + d.val / 128; omega)]
  exact congrArg (fun r : Fin 4096 => m ((c : Thread nD τ).loc main_arg2) (ix2 r j))
    (Fin.ext (by show 128 * (28 + d.val / 128 - 28) + d.val % 128 = d.val; omega))

/-- Row `j` of the first weight matrix lies in the block of point `j / 512`, at row `j % 512`. -/
theorem value_w1_row (m : (ℓ : Loc nD τ sig) → Buf (Elt Ideal) ℓ) (c : Dev nD) (j : Fin 14336) (k : Fin 4096) :
    w1Blk m c ⟨j.val / 512, div512_lt j.isLt⟩ (ix2 ⟨j.val % 512, Nat.mod_lt _ (by decide)⟩ k)
      = m ((c : Thread nD τ).loc main_arg1) (ix2 j k) := by
  rw [w1Blk_apply m c _ (by show j.val / 512 < 28; omega)]
  exact congrArg (fun r : Fin 14336 => m ((c : Thread nD τ).loc main_arg1) (ix2 r k))
    (Fin.ext (by show 512 * (j.val / 512) + j.val % 512 = j.val; omega))

/-- Column `4 b + t` of the transposed input is token `(b, t)`. -/
theorem value_xt_col (m : (ℓ : Loc nD τ sig) → Buf (Elt Ideal) ℓ) (c : Dev nD) (p : Fin cfg0.N) (k : Fin 4096)
    (b : Fin 8) (t : Fin 4) :
    xtBlk m c p (ix2 k ⟨4 * b.val + t.val, token_lt b t⟩) = m ((c : Thread nD τ).loc main_arg0) (ix3 b t k) := by
  rw [xtBlk_apply]
  have hb : (⟨(4 * b.val + t.val) / 4, tokDiv_lt ⟨4 * b.val + t.val, token_lt b t⟩⟩ : Fin 8) = b :=
    Fin.ext (by show (4 * b.val + t.val) / 4 = b.val; omega)
  have ht : (⟨(4 * b.val + t.val) % 4, Nat.mod_lt _ (by decide)⟩ : Fin 4) = t :=
    Fin.ext (by show (4 * b.val + t.val) % 4 = t.val; omega)
  show m ((c : Thread nD τ).loc main_arg0) (ix3 ⟨(4 * b.val + t.val) / 4, _⟩ ⟨(4 * b.val + t.val) % 4, _⟩ k) = _
  rw [hb, ht]

/-- Entry `(j, 4 b + t)` of the hidden activation is hidden unit `j` of token `(b, t)`. -/
theorem value_hidden_apply (m : (ℓ : Loc nD τ sig) → Buf (Elt Ideal) ℓ) (c : Dev nD) (j : Fin 14336) (b : Fin 8) (t : Fin 4) :
    hidden m c (ix2 j ⟨4 * b.val + t.val, token_lt b t⟩)
      = Cert.Spec.hid (m ((c : Thread nD τ).loc main_arg0)) (m ((c : Thread nD τ).loc main_arg1)) b t j := by
  unfold hidden hiddenRows
  show k0_pay1 (w1Blk m c ⟨j.val / 512, div512_lt j.isLt⟩) (xtBlk m c ⟨j.val / 512, div512_lt j.isLt⟩)
      (ix2 ⟨j.val % 512, Nat.mod_lt _ (by decide)⟩ ⟨4 * b.val + t.val, token_lt b t⟩) = _
  rw [pay1_apply]
  unfold Cert.Spec.hid
  congr 1
  refine Finset.sum_congr rfl fun k _ => ?_
  rw [value_w1_row, value_xt_col, mul_comm]

/-- Entry `(d, 4 b + t)` of the region's result. -/
theorem value_outArr_apply (m : (ℓ : Loc nD τ sig) → Buf (Elt Ideal) ℓ) (c : Dev nD) (d : Fin 4096) (b : Fin 8) (t : Fin 4) :
    outArr m c (ix2 d ⟨4 * b.val + t.val, token_lt b t⟩)
      = ∑ j : Fin 14336, Cert.Spec.hid (m ((c : Thread nD τ).loc main_arg0)) (m ((c : Thread nD τ).loc main_arg1)) b t j
          * m ((c : Thread nD τ).loc main_arg2) (ix2 d j) := by
  unfold outArr outBlk
  show k0_pay2 (w2Blk m c ⟨28 + d.val / 128, outPoint_lt d.isLt⟩) (hidden m c)
      (ix2 ⟨d.val % 128, Nat.mod_lt _ (by decide)⟩ ⟨4 * b.val + t.val, token_lt b t⟩) = _
  rw [pay2_apply]
  refine Finset.sum_congr rfl fun j _ => ?_
  rw [value_w2_row, value_hidden_apply, mul_comm]

theorem kernel_value (m : (ℓ : Loc nD τ sig) → Buf (Elt Ideal) ℓ) (c : Dev nD) :
    Pipeline.afterTail₀ cfgs (dats m) 0 (V0 m) [hostOps1] c main_v0
      = Cert.Spec.ffn (m ((c : Thread nD τ).loc main_arg0)) (m ((c : Thread nD τ).loc main_arg1)) (m ((c : Thread nD τ).loc main_arg2)) := by
  refine funext fun (i : S8x4x4096.Idx) => ?_
  rw [tail_result]
  exact value_outArr_apply m c (i 2) (i 0) (i 1)

end Cert.KernelIdeal.Ffn

end
-- ==== Proof.FfnRunI.lean ====
/- The idealized kernel's run with its result named: the program terminates with its result buffer at the
   feed-forward layer of the specification and its three arguments unchanged. The result buffer is no array of the
   pipeline, so the run's post gives it as what the two host operations after the region leave; the arguments as in the
   frame. -/
import proofs.«170390_g47425028882858_cont_8to1c4_122_13_alg».proof.Proof.FfnDataI
import proofs.«170390_g47425028882858_cont_8to1c4_122_13_alg».proof.Proof.FfnBodyI
import proofs.«170390_g47425028882858_cont_8to1c4_122_13_alg».proof.Proof.FfnValueI
set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
          = Cert.Spec.ffn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v0 (Pipeline.mem_restRefs_of main_v0 (by decide) (by decide))).trans (kernel_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Ffn

end
-- ==== Proof.RefValue.lean ====
/- The reference program's result is the feed-forward layer of the specification, entry by entry:
   its first product contracts the model dimension of the input against the rows of the first weight matrix, its
   maximum with the zero splat is the clamp, and its second product contracts the hidden units against the rows of the
   second weight matrix. -/
import proofs.«170390_g47425028882858_cont_8to1c4_122_13_alg».proof.Proof.Gen.ReferenceIdeal.Run
import proofs.«170390_g47425028882858_cont_8to1c4_122_13_alg».proof.Proof.Gen.ReferenceIdeal.Read
import proofs.«170390_g47425028882858_cont_8to1c4_122_13_alg».proof.Proof.Spec

noncomputable section

namespace Cert.RefValue

open Cert.ReferenceIdeal Cert.ReferenceIdeal.Gen Cert.ReferenceIdeal.Read
open Idealize.ShloMosaic Idealize.ShloMosaic.ValueIdx
open scoped BigOperators

/-- The first product's left index at output position `i` and contraction position `k`: token `(i 0, i 1)`, model
    dimension `k`. -/
theorem lidx_v0_eq (i : S8x4x14336.Idx) (k : Fin 4096) : lidx_main_v0 i k = ix3 (i 0) (i 1) k :=
  funext fun a => Fin.ext (by match a with | ⟨0, _⟩ => rfl | ⟨1, _⟩ => rfl | ⟨2, _⟩ => rfl)

/-- The first product's right index: row `i 2` (the hidden unit) of the first weight matrix, column `k`. -/
theorem ridx_v0_eq (i : S8x4x14336.Idx) (k : Fin 4096) : ridx_main_v0 i k = ix2 (i 2) k :=
  funext fun a => Fin.ext (by match a with | ⟨0, _⟩ => rfl | ⟨1, _⟩ => rfl)

/-- The second product's right index: row `i 2` (the model dimension) of the second weight matrix, column `k`. -/
theorem ridx_v3_eq (i : S8x4x4096.Idx) (k : Fin 14336) : ridx_main_v3 i k = ix2 (i 2) k :=
  funext fun a => Fin.ext (by match a with | ⟨0, _⟩ => rfl | ⟨1, _⟩ => rfl)

theorem ref_is_ffn (x0 : (⟨S8x4x4096, .f32⟩ : BufTy).Contents (Elt Ideal)) (x1 : (⟨S14336x4096, .f32⟩ : BufTy).Contents (Elt Ideal))
    (x2 : (⟨S4096x14336, .f32⟩ : BufTy).Contents (Elt Ideal)) :
    val_main_v3 (F := Ideal) x0 x1 x2 = Cert.Spec.ffn x0 x1 x2 := by
  funext i
  -- the outer product is the sum over the hidden units; compare it with the specification's sum term by term
  rw [val_main_v3_apply]
  unfold Cert.Spec.ffn Cert.Spec.hid
  refine Finset.sum_congr rfl fun j _ => ?_
  -- hidden unit j: the maximum of the inner product and the zero splat, whose every entry is the real zero
  rw [val_main_v2_apply, val_main_v0_apply, val_main_v1_apply, val_main_cst_apply, Ideal.maximumf_def,
    Ideal.ofBits_def, Ideal.ofBits_zero_f32, ridx_v3_eq]
  congr 2
  -- the inner product, term by term over the model dimension; the left index of the outer product at (i, j) has
  -- coordinates (i 0, i 1, j)
  refine Finset.sum_congr rfl fun k _ => ?_
  rw [lidx_v0_eq, ridx_v0_eq]
  rfl

end Cert.RefValue

end
-- ==== Proof.lean ====
/- The feed-forward kernel out = relu(x W1ᵀ) W2ᵀ against its reference, over the extended reals.

   The kernel runs a grid of 60 points in two phases around a scratch that lives across the points: the first 28 points
   fill the scratch, 512 rows a point, with the clamped product of the first weight matrix and the transposed input; the
   last 32 points each multiply 128 rows of the second weight matrix by the whole scratch into their block of the
   result. The frames (the word-level kernel's and the idealized kernel's, one text read at two instances) carry the
   scratch through the points as a relation: after n points its rows below 512 n are the hidden activation's. The value
   leg reads the result block by block, through the two host operations after the region, as the specification's sum,
   and the reference's two products and its maximum are the same sum up to the order of each product's factors.
   No rewrite was applied by the idealization, so the preservation conjunct is trivial; no finiteness is used. -/
import proofs.«170390_g47425028882858_cont_8to1c4_122_13_alg».proof.Defs
import proofs.«170390_g47425028882858_cont_8to1c4_122_13_alg».proof.Proof.Gen.Kernel
import proofs.«170390_g47425028882858_cont_8to1c4_122_13_alg».proof.Proof.Gen.KernelIdeal
import proofs.«170390_g47425028882858_cont_8to1c4_122_13_alg».proof.Proof.Gen.ReferenceIdeal
import proofs.«170390_g47425028882858_cont_8to1c4_122_13_alg».proof.Proof.Gen.Pre_finite_inputs
import proofs.«170390_g47425028882858_cont_8to1c4_122_13_alg».proof.Proof.Gen.ReferenceIdeal.Run
import proofs.«170390_g47425028882858_cont_8to1c4_122_13_alg».proof.Proof.Gen.ReferenceIdeal.Read
import proofs.«170390_g47425028882858_cont_8to1c4_122_13_alg».proof.Proof.FfnBodyK
import proofs.«170390_g47425028882858_cont_8to1c4_122_13_alg».proof.Proof.FfnBodyI
import proofs.«170390_g47425028882858_cont_8to1c4_122_13_alg».proof.Proof.FfnRunI
import proofs.«170390_g47425028882858_cont_8to1c4_122_13_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Ffn.frame m ρ,
  fun m ρ _ => Cert.KernelIdeal.Ffn.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Spec.ffn
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.Ffn.value_run m ρ,
      (θ_run Cert.ReferenceIdeal.defs _ _).mono (fun _ h c =>
        ⟨by rw [(h c).1, Cert.ReferenceIdeal.Read.val_main_v3_eq, Cert.RefValue.ref_is_ffn, (hagree c).1, (hagree c).2.1, (hagree c).2.2],
          (h c).2⟩)
        (Cert.ReferenceIdeal.Value.run (F := Ideal) m' ρ')⟩⟩

end Cert.Proof

end
